-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x200000x128 : Shape := ⟨3, ![3, 200000, 128]⟩
abbrev S200000 : Shape := ⟨1, ![200000]⟩
abbrev S3x10x128 : Shape := ⟨3, ![3, 10, 128]⟩
abbrev S_ : Shape := ⟨0, ![]⟩

class Facts : Prop where
  bcast_S_S3x200000x128 : S_.BroadcastsInDim S3x200000x128 (![] : Fin 0 → Fin S3x200000x128.rank)
  reducesTo_S3x200000x128_S_d0_1_2 : S3x200000x128.ReducesTo [0, 1, 2] S_
  h_S_ : 0 < S_.numel
  bcast_S_S3x10x128 : S_.BroadcastsInDim S3x10x128 (![] : Fin 0 → Fin S3x10x128.rank)
  reducesTo_S3x10x128_S_d0_1_2 : S3x10x128.ReducesTo [0, 1, 2] S_

variable [Facts]

def fn {F : FTy → Type} [FloatOps F] (main_arg0 : FVec F S3x200000x128 .f32) (main_arg1 : IVec S200000 32) (main_arg2 : FVec F S3x10x128 .f32) : IVec S_ 1 :=
  let main_v0 : FVec F S3x200000x128 .f32 := Host.absf main_arg0
  let main_cst : FVec F S_ .f32 := constant S_ .f32 0x7F800000#32
  let main_v1 : FVec F S3x200000x128 .f32 := broadcastInDim S3x200000x128 ![] bcast_S_S3x200000x128 main_cst
  let main_v2 : IVec S3x200000x128 1 := cmpf .olt main_v0 main_v1
  let main_c : IVec S_ 1 := constantI S_ 1 1#1
  let main_v3 : IVec S_ 1 := (fun x v => Host.reduce IntOp.andi x v reducesTo_S3x200000x128_S_d0_1_2 h_S_) main_v2 main_c
  let main_v4 : FVec F S3x10x128 .f32 := Host.absf main_arg2
  let main_cst_0 : FVec F S_ .f32 := constant S_ .f32 0x7F800000#32
  let main_v5 : FVec F S3x10x128 .f32 := broadcastInDim S3x10x128 ![] bcast_S_S3x10x128 main_cst_0
  let main_v6 : IVec S3x10x128 1 := cmpf .olt main_v4 main_v5
  let main_c_1 : IVec S_ 1 := constantI S_ 1 1#1
  let main_v7 : IVec S_ 1 := (fun x v => Host.reduce IntOp.andi x v reducesTo_S3x10x128_S_d0_1_2 h_S_) main_v6 main_c_1
  let main_v8 : IVec S_ 1 := andi main_v3 main_v7
  main_v8
-- ==== Kernel.lean ====
abbrev S3x200000x128 : Shape := ⟨3, ![3, 200000, 128]⟩
abbrev S200000 : Shape := ⟨1, ![200000]⟩
abbrev S3x10x128 : Shape := ⟨3, ![3, 10, 128]⟩
abbrev S200000x1 : Shape := ⟨2, ![200000, 1]⟩
abbrev S2x3x10x128 : Shape := ⟨4, ![2, 3, 10, 128]⟩
abbrev S1x10000x128 : Shape := ⟨3, ![1, 10000, 128]⟩
abbrev S10000x1 : Shape := ⟨2, ![10000, 1]⟩
abbrev S1x1x10x128 : Shape := ⟨4, ![1, 1, 10, 128]⟩
abbrev S10x128 : Shape := ⟨2, ![10, 128]⟩
abbrev S10000x128 : Shape := ⟨2, ![10000, 128]⟩
abbrev S10000x10 : Shape := ⟨2, ![10000, 10]⟩
abbrev S_ : Shape := ⟨0, ![]⟩
abbrev S10 : Shape := ⟨1, ![10]⟩
abbrev S1x10x1 : Shape := ⟨3, ![1, 10, 1]⟩
abbrev S10x1 : Shape := ⟨2, ![10, 1]⟩

abbrev nBuf : Space → Nat
  | .hbm => 21
  | .vmem => 6
  | .smem => 0
  | _ => 0

abbrev bufTy : (tb : Table) → Fin (tcTables nBuf tb) → BufTy
  | .hbm, ⟨0, _⟩ => ⟨S3x200000x128, .f32⟩
  | .hbm, ⟨1, _⟩ => ⟨S200000, .i32⟩
  | .hbm, ⟨2, _⟩ => ⟨S3x10x128, .f32⟩
  | .hbm, ⟨3, _⟩ => ⟨S200000x1, .i32⟩
  | .hbm, ⟨4, _⟩ => ⟨S2x3x10x128, .f32⟩
  | .hbm, ⟨5, _⟩ => ⟨S_, .f32⟩
  | .hbm, ⟨6, _⟩ => ⟨S3x10x128, .f32⟩
  | .hbm, ⟨7, _⟩ => ⟨S_, .f32⟩
  | .hbm, ⟨8, _⟩ => ⟨S200000, .f32⟩
  | .hbm, ⟨9, _⟩ => ⟨S_, .f32⟩
  | .hbm, ⟨10, _⟩ => ⟨S10, .f32⟩
  | .hbm, ⟨11, _⟩ => ⟨S200000x1, .i32⟩
  | .hbm, ⟨12, _⟩ => ⟨S10, .f32⟩
  | .hbm, ⟨13, _⟩ => ⟨S_, .f32⟩
  | .hbm, ⟨14, _⟩ => ⟨S10, .f32⟩
  | .hbm, ⟨15, _⟩ => ⟨S10, .f32⟩
  | .hbm, ⟨16, _⟩ => ⟨S1x10x1, .f32⟩
  | .hbm, ⟨17, _⟩ => ⟨S3x10x128, .f32⟩
  | .hbm, ⟨18, _⟩ => ⟨S3x10x128, .f32⟩
  | .hbm, ⟨19, _⟩ => ⟨S3x10x128, .f32⟩
  | .hbm, ⟨20, _⟩ => ⟨S10x1, .f32⟩
  | .local _ .vmem, ⟨0, _⟩ => ⟨S1x10000x128, .f32⟩
  | .local _ .vmem, ⟨1, _⟩ => ⟨S1x10000x128, .f32⟩
  | .local _ .vmem, ⟨2, _⟩ => ⟨S10000x1, .i32⟩
  | .local _ .vmem, ⟨3, _⟩ => ⟨S10000x1, .i32⟩
  | .local _ .vmem, ⟨4, _⟩ => ⟨S1x1x10x128, .f32⟩
  | .local _ .vmem, ⟨5, _⟩ => ⟨S1x1x10x128, .f32⟩
  | _, _ => ⟨S3x200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 10], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.muli arg0 c10_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.muli arg0 c10_i32
  let v1 : BitVec 32 := Scalar.addi v0 arg2
  let c0_i32 : BitVec 32 := 0#32
  let c0_i32_0 : BitVec 32 := 0#32
  ![v1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S10000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x10x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S200000_S200000x1 : S200000.ShapeCasts S200000x1
  inb_S1x1x10x128_S1x1x10x128_0_0_0_0 : ∀ a, (![0, 0, 0, 0] : Fin 4 → Nat) a + S1x1x10x128.size a ≤ S1x1x10x128.size a
  h_S1x1x10x128 : 0 < S1x1x10x128.numel
  shapeCasts_S1x1x10x128_S10x128 : S1x1x10x128.ShapeCasts S10x128
  shapeCasts_S10x128_S1x1x10x128 : S10x128.ShapeCasts S1x1x10x128
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x10_d1_w32 : S10000x10.Iotas .tc 32 [1]
  broadcasts_S10000x1_S10000x10 : S10000x1.Broadcasts S10000x10
  natLt_1_32 : 1 < 32
  reducesTo_S2x3x10x128_S3x10x128_d0 : S2x3x10x128.ReducesTo [0] S3x10x128
  h_S_ : 0 < S_.numel
  bcast_S_S200000 : S_.BroadcastsInDim S200000 (![] : Fin 0 → Fin S200000.rank)
  bcast_S_S10 : S_.BroadcastsInDim S10 (![] : Fin 0 → Fin S10.rank)
  bcast_S200000_S200000x1_0 : S200000.BroadcastsInDim S200000x1 (![0] : Fin 1 → Fin S200000x1.rank)
  bcast_S10_S1x10x1_1 : S10.BroadcastsInDim S1x10x1 (![1] : Fin 1 → Fin S1x10x1.rank)
  bcast_S1x10x1_S3x10x128_0_1_2 : S1x10x1.BroadcastsInDim S3x10x128 (![0, 1, 2] : Fin 3 → Fin S3x10x128.rank)
  shapeCasts_S10_S10x1 : S10.ShapeCasts S10x1
  dot_S10000x10_S10000x128_S10x128_0_0_1_1_n_n_wf : DotDims.WF S10000x10 S10000x128 S10x128 [0] [0] [1] [1] [] []
  scatter_S10_S200000x1_S200000_n_0_0_1_wf : ScatterDims.WF S10 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x128.size a ≤ S3x200000x128.size a
  hwx0_0 : ∀ i : grid0.Coords, EltTy.bits .f32 = 32 ∨ (Rect.block (s := S3x200000x128) S1x10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S200000x1.size a
  hwx0_1 : ∀ i : grid0.Coords, EltTy.bits .i32 = 32 ∨ (Rect.block (s := S200000x1) S10000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x10x128.size a ≤ S2x3x10x128.size a
  hwx0_2 : ∀ i : grid0.Coords, EltTy.bits .f32 = 32 ∨ (Rect.block (s := S2x3x10x128) S1x1x10x128.size (cc0_transform_2 i) (hinb0_2 i)).WholeWords (EltTy.packing .f32)

variable [Facts₀]

def dot_S10000x10_S10000x128_S10x128_0_0_1_1_n_n : DotDims S10000x10 S10000x128 S10x128 where
  lhsContracting := [0]
  rhsContracting := [0]
  lhsNonContracting := [1]
  rhsNonContracting := [1]
  lhsBatch := []
  rhsBatch := []
  wf := dot_S10000x10_S10000x128_S10x128_0_0_1_1_n_n_wf
def scatter_S10_S200000x1_S200000_n_0_0_1 : ScatterDims S10 S200000x1 S200000 where
  updateWindowDims := []
  insertedWindowDims := [0]
  scatterDimsToOperandDims := [0]
  indexVectorDim := 1
  wf := scatter_S10_S200000x1_S200000_n_0_0_1_wf

abbrev win0_0 : Pipeline.Window sig grid0 :=
  Pipeline.Window.ofSpec (Memref.whole main_arg0) S1x10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x10x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x200000x128 : Shape := ⟨3, ![3, 200000, 128]⟩
abbrev S200000 : Shape := ⟨1, ![200000]⟩
abbrev S3x10x128 : Shape := ⟨3, ![3, 10, 128]⟩
abbrev S_ : Shape := ⟨0, ![]⟩
abbrev S10 : Shape := ⟨1, ![10]⟩
abbrev S200000x1 : Shape := ⟨2, ![200000, 1]⟩
abbrev S10x128 : Shape := ⟨2, ![10, 128]⟩
abbrev S1x10x1 : Shape := ⟨3, ![1, 10, 1]⟩
abbrev S10x1 : Shape := ⟨2, ![10, 1]⟩

abbrev nBuf : Space → Nat
  | .hbm => 22
  | .vmem => 0
  | .smem => 0
  | _ => 0

abbrev bufTy : (tb : Table) → Fin (tcTables nBuf tb) → BufTy
  | .hbm, ⟨0, _⟩ => ⟨S3x200000x128, .f32⟩
  | .hbm, ⟨1, _⟩ => ⟨S200000, .i32⟩
  | .hbm, ⟨2, _⟩ => ⟨S3x10x128, .f32⟩
  | .hbm, ⟨3, _⟩ => ⟨S_, .f32⟩
  | .hbm, ⟨4, _⟩ => ⟨S200000, .f32⟩
  | .hbm, ⟨5, _⟩ => ⟨S_, .f32⟩
  | .hbm, ⟨6, _⟩ => ⟨S10, .f32⟩
  | .hbm, ⟨7, _⟩ => ⟨S200000x1, .i32⟩
  | .hbm, ⟨8, _⟩ => ⟨S10, .f32⟩
  | .hbm, ⟨9, _⟩ => ⟨S_, .f32⟩
  | .hbm, ⟨10, _⟩ => ⟨S10x128, .f32⟩
  | .hbm, ⟨11, _⟩ => ⟨S200000x1, .i32⟩
  | .hbm, ⟨12, _⟩ => ⟨S3x10x128, .f32⟩
  | .hbm, ⟨13, _⟩ => ⟨S3x10x128, .f32⟩
  | .hbm, ⟨14, _⟩ => ⟨S_, .f32⟩
  | .hbm, ⟨15, _⟩ => ⟨S10, .f32⟩
  | .hbm, ⟨16, _⟩ => ⟨S10, .f32⟩
  | .hbm, ⟨17, _⟩ => ⟨S1x10x1, .f32⟩
  | .hbm, ⟨18, _⟩ => ⟨S3x10x128, .f32⟩
  | .hbm, ⟨19, _⟩ => ⟨S3x10x128, .f32⟩
  | .hbm, ⟨20, _⟩ => ⟨S10x1, .f32⟩
  | .hbm, ⟨21, _⟩ => ⟨S3x10x128, .f32⟩
  | _, _ => ⟨S3x200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S_S10 : S_.BroadcastsInDim S10 (![] : Fin 0 → Fin S10.rank)
  bcast_S200000_S200000x1_0 : S200000.BroadcastsInDim S200000x1 (![0] : Fin 1 → Fin S200000x1.rank)
  bcast_S_S10x128 : S_.BroadcastsInDim S10x128 (![] : Fin 0 → Fin S10x128.rank)
  bcast_S10x128_S3x10x128_1_2 : S10x128.BroadcastsInDim S3x10x128 (![1, 2] : Fin 2 → Fin S3x10x128.rank)
  bcast_S10_S1x10x1_1 : S10.BroadcastsInDim S1x10x1 (![1] : Fin 1 → Fin S1x10x1.rank)
  bcast_S1x10x1_S3x10x128_0_1_2 : S1x10x1.BroadcastsInDim S3x10x128 (![0, 1, 2] : Fin 3 → Fin S3x10x128.rank)
  shapeCasts_S10_S10x1 : S10.ShapeCasts S10x1
  scatter_S10_S200000x1_S200000_n_0_0_1_wf : ScatterDims.WF S10 S200000x1 S200000 [] [0] [0] 1
  scatter_S3x10x128_S200000x1_S3x200000x128_02_1_1_1_wf : ScatterDims.WF S3x10x128 S200000x1 S3x200000x128 [0, 2] [1] [1] 1

variable [Facts₀]

def scatter_S10_S200000x1_S200000_n_0_0_1 : ScatterDims S10 S200000x1 S200000 where
  updateWindowDims := []
  insertedWindowDims := [0]
  scatterDimsToOperandDims := [0]
  indexVectorDim := 1
  wf := scatter_S10_S200000x1_S200000_n_0_0_1_wf
def scatter_S3x10x128_S200000x1_S3x200000x128_02_1_1_1 : ScatterDims S3x10x128 S200000x1 S3x200000x128 where
  updateWindowDims := [0, 2]
  insertedWindowDims := [1]
  scatterDimsToOperandDims := [1]
  indexVectorDim := 1
  wf := scatter_S3x10x128_S200000x1_S3x200000x128_02_1_1_1_wf

class Facts : Prop extends Facts₀ where

variable [Facts]
-- ==== Proof.Tail.lean ====
/-
  What both programs do with the per-hop, per-label sums.

  The label counts are a scatter of ones by label into a zero vector; the centers are the sums divided, label by label,
  by the count or by one, whichever is larger; the first result adds the weight array to the centers, the second is
  the counts as a column. The idealized kernel runs exactly these operations after its pallas_call, on the sum over
  the two halves of the partial sums the call leaves.
-/
import proofs.«400846_j1735166788587_2_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Tail

open Cert.KernelIdeal Cert.KernelIdeal.Gen

variable {F : FTy → Type} [FloatOps F]

/-- The label counts: ones scattered by label into a zero vector. -/
def counts (lbl : (⟨S200000, .i32⟩ : BufTy).Contents (Elt F)) : (⟨S10, .f32⟩ : BufTy).Contents (Elt F) :=
  Host.scatterAdd scatter_S10_S200000x1_S200000_n_0_0_1
    (broadcastInDim S10 ![] bcast_S_S10 (constant (F := F) S_ .f32 0x00000000#32))
    (broadcastInDim S200000x1 ![0] bcast_S200000_S200000x1_0 lbl)
    (broadcastInDim S200000 ![] bcast_S_S200000 (constant (F := F) S_ .f32 0x3F800000#32))

/-- The first result from the sums: sums over clamped counts, plus the weights. -/
def centers (sums : (⟨S3x10x128, .f32⟩ : BufTy).Contents (Elt F)) (lbl : (⟨S200000, .i32⟩ : BufTy).Contents (Elt F))
    (w : (⟨S3x10x128, .f32⟩ : BufTy).Contents (Elt F)) : (⟨S3x10x128, .f32⟩ : BufTy).Contents (Elt F) :=
  addf (Host.divf sums
    (broadcastInDim S3x10x128 ![0, 1, 2] bcast_S1x10x1_S3x10x128_0_1_2
      (broadcastInDim S1x10x1 ![1] bcast_S10_S1x10x1_1
        (maximumf (counts lbl) (broadcastInDim S10 ![] bcast_S_S10 (constant (F := F) S_ .f32 0x3F800000#32)))))) w

/-- The second result: the counts as a column. -/
def countsCol (lbl : (⟨S200000, .i32⟩ : BufTy).Contents (Elt F)) : (⟨S10x1, .f32⟩ : BufTy).Contents (Elt F) :=
  shapeCast S10x1 (counts lbl) shapeCasts_S10_S10x1

/-- The sum over the two halves of the partial sums. -/
def halvesSum (part : (⟨S2x3x10x128, .f32⟩ : BufTy).Contents (Elt F)) : (⟨S3x10x128, .f32⟩ : BufTy).Contents (Elt F) :=
  Host.reduceAdd part (constant (F := F) S_ .f32 0x00000000#32) reducesTo_S2x3x10x128_S3x10x128_d0 h_S_

variable (m : (ℓ : Loc nD τ sig) → Buf (Elt F) ℓ)

/-- After the host operations that follow the pallas_call the first result holds the centers of the summed partial sums. -/
theorem tail_v12 (c : Dev nD) :
    Pipeline.afterTail₀ cfgs (dats m) 0 (V0 m) [hostOps1] c main_v12
      = centers (halvesSum ((dats m 0 c).arrAt 2 cfg0.N)) (m ((c : Thread nD τ).loc main_arg1)) (m ((c : Thread nD τ).loc main_arg2)) := by
  unfold Pipeline.afterTail₀
  show StableHlo.after hostOps1 _ (Proc.devRef .tc main_v12) = _
  after_results
  have e0 : Pipeline.withArrays (cfgs 0).spec c (V0 m c) (fun w => (dats m 0 c).arrAt w (cfgs 0).N) (Proc.devRef .tc main_v1)
      = (dats m 0 c).arrAt 2 cfg0.N := Pipeline.withArrays_arr spec0 launch0.win.arr_inj c _ _ 2
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [e0, e1, e2]
  rfl

/-- And the second result holds the counts as a column. -/
theorem tail_v13 (c : Dev nD) :
    Pipeline.afterTail₀ cfgs (dats m) 0 (V0 m) [hostOps1] c main_v13 = countsCol (m ((c : Thread nD τ).loc main_arg1)) := by
  unfold Pipeline.afterTail₀
  show StableHlo.after hostOps1 _ (Proc.devRef .tc main_v13) = _
  after_results
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [e1]
  rfl

end Cert.KernelIdeal.Tail

end
-- ==== Proof.Pieces.lean ====
/-
  What one grid point leaves in the accumulator block.

  At a point that opens a stretch of ten tiles the body first stores the zero block, reads it back, and stores the
  updated block; at every other point it stores the updated block over what the point before left. Either way the
  block ends at ONE value: the body's update applied to the point's embedding tile, its label tile and the block it
  read (the zero block, or the carried one).
-/
import proofs.«400846_j1735166788587_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- A point inside a stretch: the block ends at the update of the carried block `xo` by the point's tiles. -/
theorem out_B (c : Dev nD) (i : grid0.Coords) (a3 : Memref sig .tc .vmem S1x10000x128 .f32) (h3 : a3.IsWhole)
    (a4 : Memref sig .tc .vmem S10000x1 .i32) (h4 : a4.IsWhole) (a5 : Memref sig .tc .vmem S1x1x10x128 .f32) (h5 : a5.IsWhole)
    (hc : ¬cond0_0 i) (x0 : Vec F S1x10000x128 .f32) (x1 : Vec F S10000x1 .i32) (xo : Vec F S1x1x10x128 .f32) :
    out0_B_2 c i a3 h3 a4 h4 a5 h5 hc x0 x1 xo = k0_pay2 x0 x1 xo := by
  unfold out0_B_2
  rw [View.read_writes_eq_canon _ _ _ (cover0_B_2 c i a3 h3 a4 h4 a5 h5 hc x0 x1 xo)]
  unfold kernelRun0_B
  dsimp only
  sl_unfold_words
  rw [View.canon_unit_zero hz4]
  simp only [View.readAt_eq_ld, h3.read_unread, h4.read_unread, h5.read_unread, View.ld_unit_zero (S := S1x10000x128) hz3,
    View.ld_unit_zero (S := S10000x1) hz2, View.ld_unit_zero (S := S1x1x10x128) hz4]

/-- A point that opens a stretch: the block ends at the update of the zero block by the point's tiles. -/
theorem out_A (c : Dev nD) (i : grid0.Coords) (a3 : Memref sig .tc .vmem S1x10000x128 .f32) (h3 : a3.IsWhole)
    (a4 : Memref sig .tc .vmem S10000x1 .i32) (h4 : a4.IsWhole) (a5 : Memref sig .tc .vmem S1x1x10x128 .f32) (h5 : a5.IsWhole)
    (hc : cond0_0 i) (x0 : Vec F S1x10000x128 .f32) (x1 : Vec F S10000x1 .i32) :
    out0_A_2 c i a3 h3 a4 h4 a5 h5 hc x0 x1 = k0_pay2 x0 x1 (k0_pay1 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1x1x10x128) hz4, View.readCov_unit_zero (S := S1x1x10x128) _ hz4]
  simp only [View.readAt_eq_ld, h3.read_unread, h4.read_unread, View.ld_unit_zero (S := S1x10000x128) hz3,
    View.ld_unit_zero (S := S10000x1) hz2, View.ld_unit_zero (S := S1x1x10x128) hz4]

end Cert.KernelIdeal.Pieces

end
-- ==== Proof.Blocks.lean ====
/-
  What the kernel's windows read.

  The sixty grid points are numbered `t = 30 · c + 10 · h + n` (half `c`, hop `h`, tile `n`). At point `t` the embedding
  window holds, of hop `h`, the ten thousand rows of tile `10 · c + n`; the label window holds the same rows of the label
  column; the output window is block `(c, h)` of the partial sums. The label column is the label vector reshaped, so its
  row `i` is label `i`.
-/
import proofs.«400846_j1735166788587_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The embedding tile and the label tile of point `t`, and the two arrays they are cut from, at their literal types. -/
abbrev eblk (c : Dev nD) (t : Fin cfg0.N) : Vec F S1x10000x128 .f32 := iblk m c 0 t
abbrev lblk (c : Dev nD) (t : Fin cfg0.N) : Vec F S10000x1 .i32 := iblk m c 1 t
abbrev earr (c : Dev nD) : Vec F S3x200000x128 .f32 := V m c main_arg0
abbrev larr (c : Dev nD) : Vec F S200000x1 .i32 := V m c main_v0

/-- The printed index maps at point `t`, decided over the grid. -/
theorem idx_facts : ∀ t : Fin cfg0.N,
    win0_0.index t (0 : Fin 3) = (t.val / 10) % 3 ∧ win0_0.index t (1 : Fin 3) = (t.val / 30) * 10 + t.val % 10
    ∧ win0_0.index t (2 : Fin 3) = 0
    ∧ win0_1.index t (0 : Fin 2) = (t.val / 30) * 10 + t.val % 10 ∧ win0_1.index t (1 : Fin 2) = 0
    ∧ win0_2.index t (0 : Fin 4) = t.val / 30 ∧ win0_2.index t (1 : Fin 4) = (t.val / 10) % 3
    ∧ win0_2.index t (2 : Fin 4) = 0 ∧ win0_2.index t (3 : Fin 4) = 0 :=
  (by decide +kernel : ∀ t : Fin grid0.N, _)

theorem t_lt (t : Fin cfg0.N) : t.val < 60 := lt_of_lt_of_eq t.isLt (show cfg0.N = 60 from N_0)

/-- The hop of point `t` and the first row of its tile. -/
def hop (t : Fin cfg0.N) : Fin 3 := ⟨(t.val / 10) % 3, Nat.mod_lt _ (by norm_num)⟩
def nodeOf (t : Fin cfg0.N) (r : Fin 10000) : Fin 200000 :=
  ⟨10000 * ((t.val / 30) * 10 + t.val % 10) + r.val, by have := t_lt t; have := r.isLt; omega⟩

/-- Row `r`, column `d` of the embedding tile of point `t` is row `nodeOf t r`, column `d` of hop `hop t`. -/
theorem eblk_apply (c : Dev nD) (t : Fin cfg0.N) (r : Fin 10000) (d : Fin 128) :
    eblk m c t (ix3 (0 : Fin 1) r d) = earr m c (ix3 (hop t) (nodeOf t r) d) := by
  obtain ⟨e0, e1, e2, -⟩ := idx_facts t
  unfold eblk iblk
  rw [View.read_apply]
  show V m c main_arg0 _ = V m c main_arg0 _
  congr 1
  funext a
  apply Fin.ext
  match a with
  | ⟨0, _⟩ => show win0_0.index t (0 : Fin 3) * 1 + 1 * 0 = (t.val / 10) % 3; rw [e0]; omega
  | ⟨1, _⟩ => show win0_0.index t (1 : Fin 3) * 10000 + 1 * r.val = 10000 * ((t.val / 30) * 10 + t.val % 10) + r.val; rw [e1]; omega
  | ⟨2, _⟩ => show win0_0.index t (2 : Fin 3) * 128 + 1 * d.val = d.val; rw [e2]; omega

/-- Row `r` of the label tile of point `t` is row `nodeOf t r` of the label column. -/
theorem lblk_apply (c : Dev nD) (t : Fin cfg0.N) (r : Fin 10000) :
    lblk m c t (ix2 r (0 : Fin 1)) = larr m c (ix2 (nodeOf t r) (0 : Fin 1)) := by
  obtain ⟨-, -, -, e3, e4, -⟩ := idx_facts t
  unfold lblk iblk
  rw [View.read_apply]
  show V m c main_v0 _ = V m c main_v0 _
  congr 1
  funext a
  apply Fin.ext
  match a with
  | ⟨0, _⟩ => show win0_1.index t (0 : Fin 2) * 10000 + 1 * r.val = 10000 * ((t.val / 30) * 10 + t.val % 10) + r.val; rw [e3]; omega
  | ⟨1, _⟩ => show win0_1.index t (1 : Fin 2) * 1 + 1 * 0 = 0; rw [e4]

/-- The label column as the region finds it is the label vector reshaped. -/
theorem larr_eq (c : Dev nD) :
    larr m c = shapeCast S200000x1 (m ((c : Thread nD τ).loc main_arg1)) shapeCasts_S200000_S200000x1 := by
  show StableHlo.after hostOps0 (fun b => m (c, b)) (Proc.devRef .tc main_v0) = _
  after_results
  rfl

/-- Row `i` of the label column is label `i`. -/
theorem larr_apply (c : Dev nD) (i : Fin 200000) :
    larr m c (ix2 i (0 : Fin 1)) = m ((c : Thread nD τ).loc main_arg1) (ix1 i) := by
  rw [larr_eq]
  exact shapeCast_apply _ shapeCasts_S200000_S200000x1 (ix2 i (0 : Fin 1)) (ix1 i)
    (by rw [Shape.rowMajor_val_one, Shape.rowMajor_val_two]; show i.val = i.val * 1 + 0; omega)

/-- The embedding array as the region finds it is the argument. -/
theorem earr_eq (c : Dev nD) : earr m c = m ((c : Thread nD τ).loc main_arg0) := V_main_arg0 m c

end Cert.KernelIdeal.Blocks

end
-- ==== Proof.Payload.lean ====
import proofs.«400846_j1735166788587_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

/-! # The kernel body's arithmetic, read at one element

The body keeps a [1,1,10,128] accumulator block. Its first payload is the zero block. Its second
adds to the accumulator the product of the TRANSPOSED one-hot matrix of the labels (10000 rows,
10 classes) with the [10000,128] input tile: element (l, d) of that product is the sum, over the
rows whose label is l, of column d of the row. -/

noncomputable section

namespace Cert.KernelIdeal.Payload

open Idealize.ShloMosaic Idealize.ShloMosaic.ValueIdx Cert.KernelIdeal Cert.KernelIdeal.Gen
open scoped BigOperators

/-! ## A label word against a class number -/

/-- A class number below ten, as a 32-bit word, reads signed as itself. -/
theorem toInt_ofNat_class : ∀ l : Fin 10, (BitVec.ofNat 32 l.val).toInt = (l.val : Int) := by decide

/-- A word is the word of class l exactly when, read signed, it is l. -/
theorem word_eq_class_iff (x : BitVec 32) (l : Fin 10) : x = BitVec.ofNat 32 l.val ↔ x.toInt = (l.val : Int) := by
  rw [← toInt_ofNat_class l]
  exact BitVec.toInt_inj.symm

/-- A truth value widened to 32 bits reads signed as one or zero. -/
theorem toInt_setWidth_ofBool (b : Bool) : ((BitVec.ofBool b).setWidth 32).toInt = if b = true then 1 else 0 := by
  cases b <;> decide

/-- The widened equality test of a word against class l reads signed as one when the word, read signed, is l, and
    as zero otherwise. -/
theorem toInt_onehot (x : BitVec 32) (l : Fin 10) :
    ((IntOp.cmpi .eq x (BitVec.ofNat 32 l.val)).setWidth 32).toInt = if x.toInt = (l.val : Int) then 1 else 0 := by
  show ((BitVec.ofBool (x == BitVec.ofNat 32 l.val)).setWidth 32).toInt = _
  rw [toInt_setWidth_ofBool]
  simp only [beq_iff_eq, word_eq_class_iff]

/-- The one-hot entry, converted to an extended real, times a value: the value on the label's class, zero off it.
    One and zero multiply every extended real as they should, infinite ones included. -/
theorem onehot_mul (x : BitVec 32) (l : Fin 10) (y : EReal) :
    (FloatOps.sitofp (F := Ideal) .f32 ((IntOp.cmpi .eq x (BitVec.ofNat 32 l.val)).setWidth 32) : EReal) * y
      = if x.toInt = (l.val : Int) then y else 0 := by
  show ((((IntOp.cmpi .eq x (BitVec.ofNat 32 l.val)).setWidth 32).toInt : ℝ) : EReal) * y = _
  rw [toInt_onehot]
  by_cases h : x.toInt = (l.val : Int)
  · rw [if_pos h, if_pos h, Int.cast_one, EReal.coe_one, one_mul]
  · rw [if_neg h, if_neg h, Int.cast_zero, EReal.coe_zero, zero_mul]

/-! ## The contraction's operand indices

The dot contracts axis 0 of both operands: at result index (l, d) and contraction position k the left operand is
read at (k, l) and the right one at (k, d). One lemma per operand axis. -/

theorem lhs_dot_0 (i : S10x128.Idx) (q : dot_S10000x10_S10000x128_S10x128_0_0_1_1_n_n.contr.Idx) :
    (dot_S10000x10_S10000x128_S10x128_0_0_1_1_n_n.lhsIdx i q 0).val = (q ⟨0, by decide⟩).val :=
  dot_S10000x10_S10000x128_S10x128_0_0_1_1_n_n.lhsIdx_val_of_single rfl i q

theorem lhs_dot_1 (i : S10x128.Idx) (q : dot_S10000x10_S10000x128_S10x128_0_0_1_1_n_n.contr.Idx) :
    (dot_S10000x10_S10000x128_S10x128_0_0_1_1_n_n.lhsIdx i q 1).val = (i 0).val := by
  unfold DotDims.lhsIdx
  rw [dif_neg (show ¬(1 : Fin S10000x10.rank) ∈ dot_S10000x10_S10000x128_S10x128_0_0_1_1_n_n.lhsBatch by decide), dif_pos (show (1 : Fin S10000x10.rank) ∈ dot_S10000x10_S10000x128_S10x128_0_0_1_1_n_n.lhsNonContracting by decide)]
  rfl

theorem rhs_dot_0 (i : S10x128.Idx) (q : dot_S10000x10_S10000x128_S10x128_0_0_1_1_n_n.contr.Idx) :
    (dot_S10000x10_S10000x128_S10x128_0_0_1_1_n_n.rhsIdx i q 0).val = (q ⟨0, by decide⟩).val :=
  dot_S10000x10_S10000x128_S10x128_0_0_1_1_n_n.rhsIdx_val_of_single rfl i q

theorem rhs_dot_1 (i : S10x128.Idx) (q : dot_S10000x10_S10000x128_S10x128_0_0_1_1_n_n.contr.Idx) :
    (dot_S10000x10_S10000x128_S10x128_0_0_1_1_n_n.rhsIdx i q 1).val = (i 1).val := by
  unfold DotDims.rhsIdx
  rw [dif_neg (show ¬(1 : Fin S10000x128.rank) ∈ dot_S10000x10_S10000x128_S10x128_0_0_1_1_n_n.rhsBatch by decide), dif_pos (show (1 : Fin S10000x128.rank) ∈ dot_S10000x10_S10000x128_S10x128_0_0_1_1_n_n.rhsNonContracting by decide)]
  rfl

/-- The product into the zero accumulator at (l, d): the sum over the 10000 rows of the left operand at (r, l)
    times the right operand at (r, d). -/
theorem matmul_zero_apply (a : FVec Ideal S10000x10 .f32) (b : FVec Ideal S10000x128 .f32) (l : Fin 10) (d : Fin 128) :
    matmul (F := Ideal) dot_S10000x10_S10000x128_S10x128_0_0_1_1_n_n none a b (constant (F := Ideal) S10x128 .f32 0x00000000#32) (ix2 l d)
      = ∑ r : Fin 10000, a (ix2 r l) * b (ix2 r d) := by
  simp only [matmul]
  rw [Ideal.matmul_constant_zero_apply, ← Equiv.sum_comp (ValueIdx.contrEquiv1 dot_S10000x10_S10000x128_S10x128_0_0_1_1_n_n 10000 rfl rfl).symm]
  refine Finset.sum_congr rfl fun k _ => ?_
  have hk := ValueIdx.contrEquiv1_symm_val dot_S10000x10_S10000x128_S10x128_0_0_1_1_n_n 10000 rfl rfl k
  have el : dot_S10000x10_S10000x128_S10x128_0_0_1_1_n_n.lhsIdx (ix2 l d) ((ValueIdx.contrEquiv1 dot_S10000x10_S10000x128_S10x128_0_0_1_1_n_n 10000 rfl rfl).symm k) = ix2 k l := funext fun a => Fin.ext (by
    match a with
    | ⟨0, _⟩ => exact (lhs_dot_0 _ _).trans hk
    | ⟨1, _⟩ => exact lhs_dot_1 _ _)
  have er : dot_S10000x10_S10000x128_S10x128_0_0_1_1_n_n.rhsIdx (ix2 l d) ((ValueIdx.contrEquiv1 dot_S10000x10_S10000x128_S10x128_0_0_1_1_n_n 10000 rfl rfl).symm k) = ix2 k d := funext fun a => Fin.ext (by
    match a with
    | ⟨0, _⟩ => exact (rhs_dot_0 _ _).trans hk
    | ⟨1, _⟩ => exact rhs_dot_1 _ _)
  rw [el, er]

/-! ## The layout steps, read at an index -/

/-- The [10,128] result stored as a [1,1,10,128] block: element (0, 0, l, d) is element (l, d). -/
theorem cast_block_apply {α : Type} (v : S10x128.Idx → α) (h : S10x128.ShapeCasts S1x1x10x128) (l : Fin 10) (d : Fin 128) :
    shapeCast S1x1x10x128 v h (ix4 (0 : Fin 1) (0 : Fin 1) l d) = v (ix2 l d) :=
  shapeCast_apply v h _ _ (by
    rw [Shape.rowMajor_val_two, Shape.rowMajor_val_four]
    show l.val * 128 + d.val = ((0 * 1 + 0) * 10 + l.val) * 128 + d.val
    omega)

/-- The [1,1,10,128] accumulator block viewed [10,128]: element (l, d) is element (0, 0, l, d). -/
theorem cast_acc_apply {α : Type} (v : S1x1x10x128.Idx → α) (h : S1x1x10x128.ShapeCasts S10x128) (l : Fin 10) (d : Fin 128) :
    shapeCast S10x128 v h (ix2 l d) = v (ix4 (0 : Fin 1) (0 : Fin 1) l d) :=
  shapeCast_apply v h _ _ (by
    rw [Shape.rowMajor_val_two, Shape.rowMajor_val_four]
    show ((0 * 1 + 0) * 10 + l.val) * 128 + d.val = l.val * 128 + d.val
    omega)

/-- The [1,10000,128] input tile viewed [10000,128]: element (r, d) is element (0, r, d). -/
theorem cast_tile_apply {α : Type} (v : S1x10000x128.Idx → α) (h : S1x10000x128.ShapeCasts S10000x128) (r : Fin 10000) (d : Fin 128) :
    shapeCast S10000x128 v h (ix2 r d) = v (ix3 (0 : Fin 1) r d) :=
  shapeCast_apply v h _ _ (by
    rw [Shape.rowMajor_val_two, Shape.rowMajor_val_three]
    show (0 * 10000 + r.val) * 128 + d.val = r.val * 128 + d.val
    omega)

/-- The label column broadcast along the ten classes: element (r, l) is the label of row r. -/
theorem bcast_label_apply {α : Type} (v : S10000x1.Idx → α) (h : S10000x1.Broadcasts S10000x10) (r : Fin 10000) (l : Fin 10) :
    broadcastTo S10000x10 v h (ix2 r l) = v (ix2 r (0 : Fin 1)) :=
  broadcastTo_apply v h _ _ (fun a => by
    match a with
    | ⟨0, _⟩ => rfl
    | ⟨1, _⟩ => rfl)

/-- The class numbers along axis 1: element (r, l) is the word of l. -/
theorem iota_class_apply (h : S10000x10.Iotas .tc 32 [1]) (r : Fin 10000) (l : Fin 10) :
    iota .tc S10000x10 32 [1] h (ix2 r l) = BitVec.ofNat 32 l.val :=
  iota_single_apply .tc S10000x10 32 1 h (ix2 r l)

/-- The one-hot matrix of the labels at (r, l): the widened test of row r's label word against the word of l,
    converted. -/
theorem onehot_apply (lbl : IVec S10000x1 32) (hc : S10000x1.ShapeCasts S10000x1) (hb : S10000x1.Broadcasts S10000x10)
    (hi : S10000x10.Iotas .tc 32 [1]) (hlt : 1 < 32) (r : Fin 10000) (l : Fin 10) :
    (sitofp (F := Ideal) .f32
        (extui 32 (cmpi .eq (broadcastTo S10000x10 (shapeCast S10000x1 lbl hc) hb) (iota .tc S10000x10 32 [1] hi)) hlt))
      (ix2 r l)
      = FloatOps.sitofp (F := Ideal) .f32 ((IntOp.cmpi .eq (lbl (ix2 r (0 : Fin 1))) (BitVec.ofNat 32 l.val)).setWidth 32) := by
  show FloatOps.sitofp (F := Ideal) .f32
      ((IntOp.cmpi .eq (broadcastTo S10000x10 (shapeCast S10000x1 lbl hc) hb (ix2 r l))
        (iota .tc S10000x10 32 [1] hi (ix2 r l))).setWidth 32) = _
  rw [bcast_label_apply, iota_class_apply, shapeCast_self]

/-! ## The two payloads -/

/-- The zero block is zero at every element. -/
theorem pay1_apply (j : S1x1x10x128.Idx) : k0_pay1 (F := Ideal) j = 0 := by
  unfold k0_pay1
  show Ideal.ofBits .f32 0x00000000#32 = 0
  exact Ideal.ofBits_zero_f32

/-- Element (0, 0, l, d) of the updated accumulator block: the accumulator's element plus the sum, over the rows r of
    the input tile whose label word, read signed, is l, of column d of that row. -/
theorem pay2_apply (x0 : Vec Ideal S1x10000x128 .f32) (x1 : Vec Ideal S10000x1 .i32) (acc : Vec Ideal S1x1x10x128 .f32)
    (l : Fin 10) (d : Fin 128) :
    k0_pay2 (F := Ideal) x0 x1 acc (ix4 (0 : Fin 1) (0 : Fin 1) l d)
      = acc (ix4 (0 : Fin 1) (0 : Fin 1) l d)
        + ∑ r : Fin 10000, (if (x1 (ix2 r (0 : Fin 1))).toInt = (l.val : Int) then x0 (ix3 (0 : Fin 1) r d) else 0) := by
  unfold k0_pay2
  refine (cast_block_apply _ _ l d).trans ?_
  refine (addf_apply _ _ _).trans ?_
  refine congrArg₂ (· + ·) (cast_acc_apply acc _ l d) ?_
  refine (matmul_zero_apply _ _ l d).trans ?_
  refine Finset.sum_congr rfl fun r _ => ?_
  refine (congrArg₂ (· * ·) (onehot_apply x1 _ _ _ _ r l) (cast_tile_apply x0 _ r d)).trans ?_
  exact onehot_mul _ l _

end Cert.KernelIdeal.Payload

end
-- ==== Proof.LibAcc.lean ====
import Mathlib.Algebra.BigOperators.Fin

/-!
# An accumulator that is reset at the start of each stretch

The points `0, 1, …, B * T - 1` fall into `B` stretches of `T` consecutive points.  An accumulator that
holds the point's term at the first point of a stretch, and at every other point what the point before left
plus the point's term, holds at point `i` of stretch `b` the sum of the terms of the points `0, …, i` of that
stretch; at the stretch's last point, the sum over the whole stretch.
-/

namespace Cert.LibAcc

/-- Point `k` of stretch `b` is a point. -/
theorem idx_lt {T B : ℕ} (b : Fin B) {k : ℕ} (hk : k < T) : b.val * T + k < B * T :=
  calc b.val * T + k < b.val * T + T := Nat.add_lt_add_left hk _
    _ = (b.val + 1) * T := (Nat.succ_mul _ _).symm
    _ ≤ B * T := Nat.mul_le_mul_right T b.isLt

/-- Point `k` of a stretch has remainder `k`. -/
theorem mod_eq (b T k : ℕ) (hk : k < T) : (b * T + k) % T = k := by
  rw [Nat.add_comm, Nat.add_mul_mod_self_right, Nat.mod_eq_of_lt hk]

section
variable {M : Type} [AddCommMonoid M] (T B : ℕ) (acc s : (n : ℕ) → n < B * T → M)

/-- The accumulator at equal points. -/
theorem acc_congr {n n' : ℕ} (e : n = n') (h : n < B * T) (h' : n' < B * T) : acc n h = acc n' h' := by
  subst e; rfl

variable (hreset : ∀ n (hn : n < B * T), n % T = 0 → acc n hn = s n hn)
  (hstep : ∀ n (hn : n < B * T) (h : n % T ≠ 0), acc n hn = acc (n - 1) (by omega) + s n hn)

include hreset hstep in
/-- At point `k` of stretch `b` the accumulator holds the sum of the stretch's terms up to `k`. -/
theorem acc_prefix (b : Fin B) : ∀ (k : ℕ) (hk : k < T),
    acc (b.val * T + k) (idx_lt b hk)
      = ∑ i' : Fin (k + 1), s (b.val * T + i'.val) (idx_lt b (Nat.lt_of_lt_of_le i'.isLt hk))
  | 0, hk => by
    rw [Fin.sum_univ_one]
    exact hreset _ _ (mod_eq b.val T 0 hk)
  | k + 1, hk => by
    rw [Fin.sum_univ_castSucc]
    have hmod : (b.val * T + (k + 1)) % T ≠ 0 := by rw [mod_eq b.val T (k + 1) hk]; omega
    rw [hstep _ _ hmod]
    refine congrArg₂ (· + ·) ?_ rfl
    exact (acc_congr T B acc (by omega) _ (idx_lt b (Nat.lt_of_succ_lt hk))).trans
      (acc_prefix b k (Nat.lt_of_succ_lt hk))

include hreset hstep in
/-- The same over the points of a stretch as `Fin T`. -/
theorem acc_stretch (b : Fin B) (i : Fin T) :
    acc (b.val * T + i.val) (idx_lt b i.isLt)
      = ∑ i' : Fin (i.val + 1), s (b.val * T + i'.val) (idx_lt b (Nat.lt_of_lt_of_le i'.isLt i.isLt)) :=
  acc_prefix T B acc s hreset hstep b i.val i.isLt

include hreset hstep in
/-- At the last point of a stretch the accumulator holds the stretch's sum. -/
theorem acc_last (hT : 0 < T) (b : Fin B) :
    acc (b.val * T + (T - 1)) (idx_lt b (by omega)) = ∑ i : Fin T, s (b.val * T + i.val) (idx_lt b i.isLt) := by
  cases T with
  | zero => omega
  | succ T' => exact acc_prefix (T' + 1) B acc s hreset hstep b T' (Nat.lt_succ_self T')

end

section
variable {M : Type} [AddCommMonoid M] (T B : ℕ) (acc s : (n : ℕ) → n < B * T → M) (z : M) (hz : z = 0)
  (hreset : ∀ n (hn : n < B * T), n % T = 0 → acc n hn = z + s n hn)
  (hstep : ∀ n (hn : n < B * T) (h : n % T ≠ 0), acc n hn = acc (n - 1) (by omega) + s n hn)

include hz hreset hstep in
/-- The same when the first point of a stretch adds its term to a zero. -/
theorem acc_stretch_zero (b : Fin B) (i : Fin T) :
    acc (b.val * T + i.val) (idx_lt b i.isLt)
      = ∑ i' : Fin (i.val + 1), s (b.val * T + i'.val) (idx_lt b (Nat.lt_of_lt_of_le i'.isLt i.isLt)) :=
  acc_stretch T B acc s (fun n hn h => by rw [hreset n hn h, hz, zero_add]) hstep b i

include hz hreset hstep in
theorem acc_last_zero (hT : 0 < T) (b : Fin B) :
    acc (b.val * T + (T - 1)) (idx_lt b (by omega)) = ∑ i : Fin T, s (b.val * T + i.val) (idx_lt b i.isLt) :=
  acc_last T B acc s (fun n hn h => by rw [hreset n hn h, hz, zero_add]) hstep hT b

end

end Cert.LibAcc
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.SegSum.lean ====
/-
  Two hundred thousand rows, tile by tile.

  The rows `0 … 199999` are cut into two halves of ten tiles of ten thousand rows: row `r` of tile `n` of half `c` is row
  `10000 · (10 · c + n) + r`. A sum over all rows is the sum over the halves of the sum over a half's tiles of the sum
  over a tile's rows, in any commutative monoid.
-/
import proofs.«400846_j1735166788587_2_alg».proof.Proof.LibBlockSum

noncomputable section

open scoped BigOperators

namespace Cert.SegSum

open Cert.LibBlockSum

/-- Row `r` of tile `n` of half `c`. -/
def row (c : Fin 2) (n : Fin 10) (r : Fin 10000) : Fin 200000 :=
  ⟨10000 * (10 * c.val + n.val) + r.val, by have := c.isLt; have := n.isLt; have := r.isLt; omega⟩

theorem row_val (c : Fin 2) (n : Fin 10) (r : Fin 10000) : (row c n r).val = 10000 * (10 * c.val + n.val) + r.val := rfl

/-- A sum over the rows is the sum over halves, tiles and rows of a tile. -/
theorem sum_tiles {M : Type*} [AddCommMonoid M] (f : Fin 200000 → M) :
    ∑ c : Fin 2, ∑ n : Fin 10, ∑ r : Fin 10000, f (row c n r) = ∑ i : Fin 200000, f i := by
  rw [sum_blocks (B := 20) (R := 10000) (N := 200000) (by norm_num) f,
    sum_blocks (B := 2) (R := 10) (N := 20) (by norm_num)
      (fun t => ∑ r : Fin 10000, f (blockIdx (B := 20) (R := 10000) (N := 200000) (by norm_num) t r))]
  refine Finset.sum_congr rfl fun c _ => Finset.sum_congr rfl fun n _ => Finset.sum_congr rfl fun r _ => ?_
  exact congrArg f (Fin.ext rfl)

end Cert.SegSum

end
-- ==== Proof.Accum.lean ====
/-
  The partial sums the pallas_call leaves.

  The accumulator block of half `c` and hop `h` is reset at the first of its ten tiles and updated at each: after
  tile `n` its element `(l, d)` is the sum, over the tiles up to `n` and the rows of each whose label is `l`, of
  column `d` of the row. It is written back after the tenth tile, so element `(c, h, l, d)` of the partial sums is
  the sum over the hundred thousand rows of half `c` whose label is `l` of `x[h, row, d]`.
-/
import proofs.«400846_j1735166788587_2_alg».proof.Proof.Pieces
import proofs.«400846_j1735166788587_2_alg».proof.Proof.Blocks
import proofs.«400846_j1735166788587_2_alg».proof.Proof.Payload
import proofs.«400846_j1735166788587_2_alg».proof.Proof.LibAcc
import proofs.«400846_j1735166788587_2_alg».proof.Proof.SegSum
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.KernelIdeal.Blocks Cert.KernelIdeal.Payload
open Cert.SegSum

variable (m : (ℓ : Loc nD τ sig) → Buf (Elt Ideal) ℓ)

/-- Node `i`'s term of element `(h, l, d)`: `x[h, i, d]` if its label read signed is `l`, else zero. -/
def term (c : Dev nD) (h : Fin 3) (l : Fin 10) (d : Fin 128) (i : Fin 200000) : EReal :=
  if ((m ((c : Thread nD τ).loc main_arg1) : (⟨S200000, .i32⟩ : BufTy).Contents (Elt Ideal)) (ix1 i)).toInt = (l.val : Int)
  then (m ((c : Thread nD τ).loc main_arg0) : (⟨S3x200000x128, .f32⟩ : BufTy).Contents (Elt Ideal)) (ix3 h i d) else 0

/-- What the tile of point `t` adds to element `(l, d)` of the accumulator. -/
def tileSum (c : Dev nD) (t : Fin cfg0.N) (l : Fin 10) (d : Fin 128) : EReal :=
  ∑ r : Fin 10000, term m c (hop t) l d (nodeOf t r)

/-- The body's sum over the rows of the point's tiles is that. -/
theorem rows_eq (c : Dev nD) (t : Fin cfg0.N) (l : Fin 10) (d : Fin 128) :
    (∑ r : Fin 10000, (if (lblk m c t (ix2 r (0 : Fin 1))).toInt = (l.val : Int) then eblk m c t (ix3 (0 : Fin 1) r d) else 0))
      = tileSum m c t l d := by
  unfold tileSum term
  refine Finset.sum_congr rfl fun r _ => ?_
  rw [lblk_apply, larr_apply, eblk_apply, earr_eq]

/-- A point that opens a stretch leaves zero plus its tile's sum. -/
theorem step_A (c : Dev nD) (t : Fin cfg0.N) (h0 : t.val % 10 = 0) (l : Fin 10) (d : Fin 128) :
    outsAt0 m c t.val t.isLt (ix4 (0 : Fin 1) (0 : Fin 1) l d) = 0 + tileSum m c t l d := by
  rw [outsAt0_A m c t h0]
  refine (congrFun (out_A (F := Ideal) c (grid0.coords t) (ms0_0 t) (hs0_0 t) (ms0_1 t) (hs0_1 t) (ms0_2 t) (hs0_2 t)
    ((hcond0_0 t).mpr h0) (iblk m c 0 t) (iblk m c 1 t)) (ix4 (0 : Fin 1) (0 : Fin 1) l d)).trans ?_
  refine (pay2_apply (eblk m c t) (lblk m c t) (k0_pay1 (F := Ideal)) l d).trans ?_
  rw [pay1_apply, rows_eq]

/-- Any other point adds its tile's sum to what the point before left. -/
theorem step_B (c : Dev nD) (t : Fin cfg0.N) (h0 : ¬t.val % 10 = 0) (l : Fin 10) (d : Fin 128) :
    outsAt0 m c t.val t.isLt (ix4 (0 : Fin 1) (0 : Fin 1) l d)
      = outsAt0 m c (t.val - 1) (Nat.lt_of_le_of_lt (Nat.sub_le _ _) t.isLt) (ix4 (0 : Fin 1) (0 : Fin 1) l d) + tileSum m c t l d := by
  rw [outsAt0_B m c t h0]
  refine (congrFun (out_B (F := Ideal) c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))) (ix4 (0 : Fin 1) (0 : Fin 1) l d)).trans ?_
  refine (pay2_apply (eblk m c t) (lblk m c t) (outsAt0 m c (t.val - 1) (Nat.lt_of_le_of_lt (Nat.sub_le _ _) t.isLt)) l d).trans ?_
  rw [rows_eq]

theorem N60 : cfg0.N = 6 * 10 := N_0

/-- After the last tile of stretch `b` the accumulator holds the sum of the stretch's ten tiles. -/
theorem last_eq (c : Dev nD) (b : Fin 6) (l : Fin 10) (d : Fin 128) :
    outsAt0 m c (b.val * 10 + 9) (by rw [N60]; have := b.isLt; omega) (ix4 (0 : Fin 1) (0 : Fin 1) l d)
      = ∑ n : Fin 10, tileSum m c ⟨b.val * 10 + n.val, by rw [N60]; have := b.isLt; have := n.isLt; omega⟩ l d :=
  Cert.LibAcc.acc_last_zero (M := EReal) 10 6
    (fun n hn => outsAt0 m c n (by rw [N60]; exact hn) (ix4 (0 : Fin 1) (0 : Fin 1) l d))
    (fun n hn => tileSum m c ⟨n, by rw [N60]; exact hn⟩ l d) 0 rfl
    (fun n hn h => step_A m c ⟨n, by rw [N60]; exact hn⟩ h l d)
    (fun n hn h => step_B m c ⟨n, by rw [N60]; exact hn⟩ h l d)
    (by norm_num) b

/-- The partial sums: element `(c', h, l, d)` is the sum over the tiles and rows of half `c'`. -/
def partialSums (c : Dev nD) : Vec Ideal S2x3x10x128 .f32 := fun j =>
  ∑ n : Fin 10, ∑ r : Fin 10000, term m c (j 1) (j 2) (j 3) (row (j 0) n r)

/-- The tile of point `10 b + n` is tile `n` of half `b / 3`, of hop `b % 3`. -/
theorem tileSum_eq (c : Dev nD) (b : Fin 6) (n : Fin 10) (l : Fin 10) (d : Fin 128) (hb) :
    tileSum m c ⟨b.val * 10 + n.val, hb⟩ l d
      = ∑ r : Fin 10000, term m c ⟨b.val % 3, Nat.mod_lt _ (by norm_num)⟩ l d (row ⟨b.val / 3, by have := b.isLt; omega⟩ n r) := by
  unfold tileSum
  refine Finset.sum_congr rfl fun r _ => ?_
  have hb' := b.isLt
  have hn := n.isLt
  have e1 : hop ⟨b.val * 10 + n.val, hb⟩ = ⟨b.val % 3, Nat.mod_lt _ (by norm_num)⟩ := Fin.ext (by
    show ((b.val * 10 + n.val) / 10) % 3 = b.val % 3
    omega)
  have e2 : nodeOf ⟨b.val * 10 + n.val, hb⟩ r = row ⟨b.val / 3, by omega⟩ n r := Fin.ext (by
    show 10000 * (((b.val * 10 + n.val) / 30) * 10 + (b.val * 10 + n.val) % 10) + r.val = 10000 * (10 * (b.val / 3) + n.val) + r.val
    omega)
  rw [e1, e2]

/-- What a writing point writes back is its block of the partial sums. -/
theorem flushed_eq (c : Dev nD) (t : Fin cfg0.N) (hf : (cfg0.win 2).flush t = true) :
    (dats m 0 c).flushed 2 t = ((cfg0.win 2).blk t).view.read (Elt Ideal) (partialSums m c) := by
  have h9 : t.val % 10 = 9 := (flush0_2 t).mp hf
  have ht := t_lt t
  obtain ⟨-, -, -, -, -, e5, e6, e7, e8⟩ := idx_facts t
  show (cfg0.win 2).cut (grid0.coords t) ((dats m 0 c).after 2 t) = _
  rw [after0_2]
  funext (j : S1x1x10x128.Idx)
  rw [View.read_apply]
  have hj : j = ix4 (0 : Fin 1) (0 : Fin 1) (j 2) (j 3) := by
    funext a
    match a with
    | ⟨0, _⟩ => exact Fin.ext (by have h0 : (j 0).val < 1 := (j 0).isLt; show (j 0).val = 0; omega)
    | ⟨1, _⟩ => exact Fin.ext (by have h1 : (j 1).val < 1 := (j 1).isLt; show (j 1).val = 0; omega)
    | ⟨2, _⟩ => rfl
    | ⟨3, _⟩ => rfl
  have hemb : ((cfg0.win 2).blk t).view.emb j
      = ix4 (⟨(t.val / 10) / 3, by omega⟩ : Fin 2) (⟨(t.val / 10) % 3, Nat.mod_lt _ (by norm_num)⟩ : Fin 3) (j 2) (j 3) := by
    funext a
    apply Fin.ext
    match a with
    | ⟨0, _⟩ => show win0_2.index t (0 : Fin 4) * 1 + 1 * (j 0).val = (t.val / 10) / 3; have h0 : (j 0).val < 1 := (j 0).isLt; rw [e5]; omega
    | ⟨1, _⟩ => show win0_2.index t (1 : Fin 4) * 1 + 1 * (j 1).val = (t.val / 10) % 3; have h1 : (j 1).val < 1 := (j 1).isLt; rw [e6]; omega
    | ⟨2, _⟩ => show win0_2.index t (2 : Fin 4) * 10 + 1 * (j 2).val = (j 2).val; rw [e7]; omega
    | ⟨3, _⟩ => show win0_2.index t (3 : Fin 4) * 128 + 1 * (j 3).val = (j 3).val; rw [e8]; omega
  rw [hemb]
  show outsAt0 m c t.val t.isLt j = _
  rw [hj]
  have hb : t.val / 10 < 6 := by omega
  have hval : t.val = (⟨t.val / 10, hb⟩ : Fin 6).val * 10 + 9 := by show t.val = t.val / 10 * 10 + 9; omega
  have hl := last_eq m c ⟨t.val / 10, hb⟩ (j 2) (j 3)
  refine (Eq.trans ?_ hl).trans ?_
  · congr 1
  · unfold partialSums
    exact Finset.sum_congr rfl fun n _ => tileSum_eq m c ⟨t.val / 10, hb⟩ n (j 2) (j 3) _

/-- Every element of the partial sums lies in the block of the last point of its half and hop. -/
theorem cover (i : S2x3x10x128.Idx) :
    ∃ t : Fin cfg0.N, (cfg0.win 2).flush t = true ∧ i ∈ ((cfg0.win 2).blk t).view.set := by
  have h0 : (i 0).val < 2 := (i 0).isLt
  have h1 : (i 1).val < 3 := (i 1).isLt
  have h2 : (i 2).val < 10 := (i 2).isLt
  have h3 : (i 3).val < 128 := (i 3).isLt
  let t : Fin cfg0.N := ⟨((i 0).val * 3 + (i 1).val) * 10 + 9, by rw [N60]; omega⟩
  have htv : t.val = ((i 0).val * 3 + (i 1).val) * 10 + 9 := rfl
  obtain ⟨-, -, -, -, -, e5, e6, e7, e8⟩ := idx_facts t
  refine ⟨t, (flush0_2 t).mpr (by rw [htv]; omega), ?_⟩
  show i ∈ ((View.whole main_v1).slice (win0_2.rect t)).set
  rw [View.set_slice_whole, Rect.mem_set_unit]
  intro a
  match a with
  | ⟨0, _⟩ => show win0_2.index t (0 : Fin 4) * 1 ≤ (i 0).val ∧ (i 0).val < win0_2.index t (0 : Fin 4) * 1 + 1; rw [e5, htv]; omega
  | ⟨1, _⟩ => show win0_2.index t (1 : Fin 4) * 1 ≤ (i 1).val ∧ (i 1).val < win0_2.index t (1 : Fin 4) * 1 + 1; rw [e6, htv]; omega
  | ⟨2, _⟩ => show win0_2.index t (2 : Fin 4) * 10 ≤ (i 2).val ∧ (i 2).val < win0_2.index t (2 : Fin 4) * 10 + 10; rw [e7]; omega
  | ⟨3, _⟩ => show win0_2.index t (3 : Fin 4) * 128 ≤ (i 3).val ∧ (i 3).val < win0_2.index t (3 : Fin 4) * 128 + 128; rw [e8]; omega

/-- So after the run the call's result array holds the partial sums. -/
theorem final (c : Dev nD) : (dats m 0 c).arrAt 2 cfg0.N = partialSums m c :=
  (dats m 0 c).arrAt_eq_of_cover 2 (partialSums m c) (flushed_eq m c) cover

end Cert.KernelIdeal.Accum

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.LibMidScatter.lean ====
/-
  A scatter that adds along the middle axis of a rank-3 operand, read at one element.

  The operand has shape `[H, N, C]`, the scatter indices `[R, 1]` (one number per update slice) and the updates
  `[H, R, C]`: update slice `k` is the `H × C` sheet `upd[·, k, ·]`, and it is added into the operand's sheet
  `x[·, v, ·]` whose middle coordinate `v` is the scatter index `idx[k, 0]`, read signed (an index that is no
  middle coordinate lands nowhere). Axis 1 of the operand is the inserted, indexed axis; axes 0 and 2 of the updates
  are the window axes and go to the operand's axes 0 and 2. This is a batch of independent segment sums, one per
  value of the leading coordinate. The scatter is read at the ideal instance, where a float is an extended real and
  the accumulation is the exact sum over the updates that land on the element.

  On the way: a sum over a rank-3 index set is the triple sum over its coordinates.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise
import proofs.«400846_j1735166788587_2_alg».proof.Proof.LibIndex

noncomputable section

open scoped BigOperators

namespace Cert.LibMidScatter

open Idealize.ShloMosaic Idealize.ShloMosaic.ValueIdx

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## A scatter that adds sheets along the middle axis -/

/-- The dimension numbers of a scatter along the middle axis: operand `[H, N, C]`, scatter indices `[R, 1]` (one
    middle coordinate per update sheet), updates `[H, R, C]`; axis 1 of the operand is the inserted, indexed axis,
    axes 0 and 2 of the updates are the window axes. -/
abbrev midScatterDims (H N C R : Nat)
    (wf : ScatterDims.WF ⟨3, ![H, N, C]⟩ ⟨2, ![R, 1]⟩ ⟨3, ![H, R, C]⟩ [0, 2] [1] [1] 1) :
    ScatterDims ⟨3, ![H, N, C]⟩ ⟨2, ![R, 1]⟩ ⟨3, ![H, R, C]⟩ where
  updateWindowDims := [0, 2]
  insertedWindowDims := [1]
  scatterDimsToOperandDims := [1]
  indexVectorDim := 1
  wf := wf

/-- On the operand's axis 0, which the scatter indices do not address, the window starts at zero. -/
theorem midScatter_start0 {H N C R w : Nat}
    (wf : ScatterDims.WF ⟨3, ![H, N, C]⟩ ⟨2, ![R, 1]⟩ ⟨3, ![H, R, C]⟩ [0, 2] [1] [1] 1)
    (idx : IVec ⟨2, ![R, 1]⟩ w) (j : (⟨3, ![H, R, C]⟩ : Shape).Idx) :
    (midScatterDims H N C R wf).start j idx (0 : Fin 3) = 0 := by
  unfold ScatterDims.start
  exact dif_neg (show (0 : Fin 3) ∉ ([1] : List (Fin 3)) from by decide)

/-- The window of update element `(h', k, c')` starts, on the operand's axis 1, at the scatter index `idx[k, 0]`
    read signed: the update's one scatter axis is its axis 1. -/
theorem midScatter_start1 {H N C R w : Nat}
    (wf : ScatterDims.WF ⟨3, ![H, N, C]⟩ ⟨2, ![R, 1]⟩ ⟨3, ![H, R, C]⟩ [0, 2] [1] [1] 1)
    (idx : IVec ⟨2, ![R, 1]⟩ w) (h' : Fin H) (k : Fin R) (c' : Fin C) :
    (midScatterDims H N C R wf).start (ix3 h' k c') idx (1 : Fin 3) = (idx (ix2 k (0 : Fin 1))).toInt := by
  unfold ScatterDims.start
  rw [dif_pos (show (1 : Fin 3) ∈ (midScatterDims H N C R wf).scatterDimsToOperandDims from List.mem_singleton.mpr rfl)]
  have hsi : (midScatterDims H N C R wf).siIdx (ix3 h' k c') ⟨List.idxOf (1 : Fin 3) (midScatterDims H N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 2, which the scatter indices do not address, the window starts at zero. -/
theorem midScatter_start2 {H N C R w : Nat}
    (wf : ScatterDims.WF ⟨3, ![H, N, C]⟩ ⟨2, ![R, 1]⟩ ⟨3, ![H, R, C]⟩ [0, 2] [1] [1] 1)
    (idx : IVec ⟨2, ![R, 1]⟩ w) (j : (⟨3, ![H, R, C]⟩ : Shape).Idx) :
    (midScatterDims H N C R wf).start j idx (2 : Fin 3) = 0 := by
  unfold ScatterDims.start
  exact dif_neg (show (2 : Fin 3) ∉ ([1] : List (Fin 3)) from by decide)

/-- The window coordinate on the operand's axis 0 is the update's coordinate on its axis 0 (the first of the kept
    operand axes `[0, 2]` reads the first window axis). -/
theorem midScatter_window0 {H N C R : Nat}
    (wf : ScatterDims.WF ⟨3, ![H, N, C]⟩ ⟨2, ![R, 1]⟩ ⟨3, ![H, R, C]⟩ [0, 2] [1] [1] 1)
    (j : (⟨3, ![H, R, C]⟩ : Shape).Idx) :
    (midScatterDims H N C R wf).window j (0 : Fin 3) = (j 0).val := by
  have hk : (0 : Fin 3) ∈ (midScatterDims H N C R wf).sKept :=
    (Cert.LibIndex.mem_kept _ _).mpr (show (0 : Fin 3) ∉ ([1] : List (Fin 3)) from by decide)
  unfold ScatterDims.window
  rw [dif_pos hk]
  rfl

/-- The window coordinate on the inserted axis 1 is zero. -/
theorem midScatter_window1 {H N C R : Nat}
    (wf : ScatterDims.WF ⟨3, ![H, N, C]⟩ ⟨2, ![R, 1]⟩ ⟨3, ![H, R, C]⟩ [0, 2] [1] [1] 1)
    (j : (⟨3, ![H, R, C]⟩ : Shape).Idx) :
    (midScatterDims H N C R wf).window j (1 : Fin 3) = 0 := by
  unfold ScatterDims.window
  exact dif_neg (fun h => ((Cert.LibIndex.mem_kept _ _).mp h) (List.mem_singleton.mpr rfl))

/-- The window coordinate on the operand's axis 2 is the update's coordinate on its axis 2 (the second of the kept
    operand axes `[0, 2]` reads the second window axis). -/
theorem midScatter_window2 {H N C R : Nat}
    (wf : ScatterDims.WF ⟨3, ![H, N, C]⟩ ⟨2, ![R, 1]⟩ ⟨3, ![H, R, C]⟩ [0, 2] [1] [1] 1)
    (j : (⟨3, ![H, R, C]⟩ : Shape).Idx) :
    (midScatterDims H N C R wf).window j (2 : Fin 3) = (j 2).val := by
  have hk : (2 : Fin 3) ∈ (midScatterDims H N C R wf).sKept :=
    (Cert.LibIndex.mem_kept _ _).mpr (show (2 : Fin 3) ∉ ([1] : List (Fin 3)) from by decide)
  unfold ScatterDims.window
  rw [dif_pos hk]
  rfl

/-- Update element `(h', k, c')` lands on operand element `(h, v, c)` exactly when sheet `k`'s scatter index, read
    signed, is `v` and the two outer coordinates agree (an index that is no middle coordinate lands nowhere). -/
theorem midScatter_resultIdx?_eq_some {H N C R w : Nat}
    (wf : ScatterDims.WF ⟨3, ![H, N, C]⟩ ⟨2, ![R, 1]⟩ ⟨3, ![H, R, C]⟩ [0, 2] [1] [1] 1)
    (idx : IVec ⟨2, ![R, 1]⟩ w) (h' : Fin H) (k : Fin R) (c' : Fin C) (h : Fin H) (v : Fin N) (c : Fin C) :
    (midScatterDims H N C R wf).resultIdx? (ix3 h' k c') idx = some (ix3 h v c)
      ↔ (idx (ix2 k (0 : Fin 1))).toInt = (v.val : Int) ∧ h' = h ∧ c' = c := by
  have hs0 := midScatter_start0 wf idx (ix3 h' k c')
  have hs1 := midScatter_start1 wf idx h' k c'
  have hs2 := midScatter_start2 wf idx (ix3 h' k c')
  have hw0 : (midScatterDims H N C R wf).window (ix3 h' k c') (0 : Fin 3) = h'.val := midScatter_window0 wf (ix3 h' k c')
  have hw1 := midScatter_window1 wf (ix3 h' k c')
  have hw2 : (midScatterDims H N C R wf).window (ix3 h' k c') (2 : Fin 3) = c'.val := midScatter_window2 wf (ix3 h' k c')
  have hv := v.isLt
  have hh' := h'.isLt
  have hc' := c'.isLt
  unfold ScatterDims.resultIdx?
  split
  · rename_i hb
    rw [Option.some.injEq]
    constructor
    · intro hf
      have h0 : ((midScatterDims H N C R wf).start (ix3 h' k c') idx (0 : Fin 3)
          + ((midScatterDims H N C R wf).window (ix3 h' k c') (0 : Fin 3) : Int)).toNat = h.val :=
        congrArg Fin.val (congrFun hf (0 : Fin 3))
      have h1 : ((midScatterDims H N C R wf).start (ix3 h' k c') idx (1 : Fin 3)
          + ((midScatterDims H N C R wf).window (ix3 h' k c') (1 : Fin 3) : Int)).toNat = v.val :=
        congrArg Fin.val (congrFun hf (1 : Fin 3))
      have h2 : ((midScatterDims H N C R wf).start (ix3 h' k c') idx (2 : Fin 3)
          + ((midScatterDims H N C R wf).window (ix3 h' k c') (2 : Fin 3) : Int)).toNat = c.val :=
        congrArg Fin.val (congrFun hf (2 : Fin 3))
      have hb1 := (hb (1 : Fin 3)).1
      rw [hs0, hw0] at h0
      rw [hs1, hw1] at h1 hb1
      rw [hs2, hw2] at h2
      exact ⟨by omega, Fin.ext (by omega), Fin.ext (by omega)⟩
    · rintro ⟨hv', hhh, hcc⟩
      have hhv : h'.val = h.val := congrArg Fin.val hhh
      have hcv : c'.val = c.val := congrArg Fin.val hcc
      funext a
      refine Fin.ext ?_
      match a with
      | ⟨0, _⟩ =>
        show ((midScatterDims H N C R wf).start (ix3 h' k c') idx (0 : Fin 3)
          + ((midScatterDims H N C R wf).window (ix3 h' k c') (0 : Fin 3) : Int)).toNat = h.val
        rw [hs0, hw0]; omega
      | ⟨1, _⟩ =>
        show ((midScatterDims H N C R wf).start (ix3 h' k c') idx (1 : Fin 3)
          + ((midScatterDims H N C R wf).window (ix3 h' k c') (1 : Fin 3) : Int)).toNat = v.val
        rw [hs1, hw1, hv']; omega
      | ⟨2, _⟩ =>
        show ((midScatterDims H N C R wf).start (ix3 h' k c') idx (2 : Fin 3)
          + ((midScatterDims H N C R wf).window (ix3 h' k c') (2 : Fin 3) : Int)).toNat = c.val
        rw [hs2, hw2]; omega
  · rename_i hb
    refine iff_of_false (by simp) ?_
    rintro ⟨hv', -, -⟩
    apply hb
    intro a
    match a with
    | ⟨0, _⟩ =>
      show 0 ≤ (midScatterDims H N C R wf).start (ix3 h' k c') idx (0 : Fin 3)
          + ((midScatterDims H N C R wf).window (ix3 h' k c') (0 : Fin 3) : Int)
        ∧ (midScatterDims H N C R wf).start (ix3 h' k c') idx (0 : Fin 3)
          + ((midScatterDims H N C R wf).window (ix3 h' k c') (0 : Fin 3) : Int) < (H : Int)
      rw [hs0, hw0]; omega
    | ⟨1, _⟩ =>
      show 0 ≤ (midScatterDims H N C R wf).start (ix3 h' k c') idx (1 : Fin 3)
          + ((midScatterDims H N C R wf).window (ix3 h' k c') (1 : Fin 3) : Int)
        ∧ (midScatterDims H N C R wf).start (ix3 h' k c') idx (1 : Fin 3)
          + ((midScatterDims H N C R wf).window (ix3 h' k c') (1 : Fin 3) : Int) < (N : Int)
      rw [hs1, hw1, hv']; omega
    | ⟨2, _⟩ =>
      show 0 ≤ (midScatterDims H N C R wf).start (ix3 h' k c') idx (2 : Fin 3)
          + ((midScatterDims H N C R wf).window (ix3 h' k c') (2 : Fin 3) : Int)
        ∧ (midScatterDims H N C R wf).start (ix3 h' k c') idx (2 : Fin 3)
          + ((midScatterDims H N C R wf).window (ix3 h' k c') (2 : Fin 3) : Int) < (C : Int)
      rw [hs2, hw2]; omega

/-- THE MIDDLE-AXIS SCATTER-ADD READ AT `(h, v, c)`, at the ideal instance: the operand's element plus element
    `(h, c)` of every update sheet whose scatter index, read signed, is `v`. -/
theorem scatterAdd_mid_apply {H N C R w : Nat}
    (wf : ScatterDims.WF ⟨3, ![H, N, C]⟩ ⟨2, ![R, 1]⟩ ⟨3, ![H, R, C]⟩ [0, 2] [1] [1] 1) {φ : FTy}
    (x : FVec Ideal ⟨3, ![H, N, C]⟩ φ) (idx : IVec ⟨2, ![R, 1]⟩ w) (upd : FVec Ideal ⟨3, ![H, R, C]⟩ φ)
    (h : Fin H) (v : Fin N) (c : Fin C) :
    Host.scatterAdd (F := Ideal) (midScatterDims H N C R wf) x idx upd (ix3 h v c)
      = x (ix3 h v c) + ∑ k : Fin R, if (idx (ix2 k (0 : Fin 1))).toInt = (v.val : Int) then upd (ix3 h k c) else 0 := by
  show Ideal.hostScatterAdd (midScatterDims H N C R wf) x idx upd (ix3 h v c) = _
  unfold Ideal.hostScatterAdd
  congr 1
  rw [Finset.sum_filter, sum_idx3]
  simp only [midScatter_resultIdx?_eq_some]
  -- sum over the sheets outermost; within a sheet only the element `(h, c)` survives
  refine Finset.sum_comm.trans ?_
  refine Finset.sum_congr rfl fun k _ => ?_
  by_cases hk : (idx (ix2 k (0 : Fin 1))).toInt = (v.val : Int)
  · have hin : ∀ a : Fin H,
        (∑ b : Fin C, if (idx (ix2 k (0 : Fin 1))).toInt = (v.val : Int) ∧ a = h ∧ b = c then upd (ix3 a k b) else 0)
          = if a = h then upd (ix3 a k c) else 0 := by
      intro a
      by_cases ha : a = h
      · have hcg : ∀ b : Fin C,
            (if (idx (ix2 k (0 : Fin 1))).toInt = (v.val : Int) ∧ a = h ∧ b = c then upd (ix3 a k b) else 0)
              = if b = c then upd (ix3 a k b) else 0 :=
          fun b => if_congr ((and_iff_right hk).trans (and_iff_right ha)) rfl rfl
        rw [if_pos ha, Finset.sum_congr rfl (fun b _ => hcg b),
          Finset.sum_ite_eq' Finset.univ c (fun b => upd (ix3 a k b)), if_pos (Finset.mem_univ c)]
      · rw [if_neg ha]
        exact Finset.sum_eq_zero fun b _ => if_neg (fun hh => ha hh.2.1)
    rw [if_pos hk, Finset.sum_congr rfl (fun a _ => hin a),
      Finset.sum_ite_eq' Finset.univ h (fun a => upd (ix3 a k c)), if_pos (Finset.mem_univ h)]
  · rw [if_neg hk]
    exact Finset.sum_eq_zero fun a _ => Finset.sum_eq_zero fun b _ => if_neg (fun hh => hk hh.1)

/-- The same for any dimension numbers whose fields are those of a scatter along the middle axis (a printed
    record's are, each by `rfl`). -/
theorem scatterAdd_mid_apply_of {H N C R w : Nat} (d : ScatterDims ⟨3, ![H, N, C]⟩ ⟨2, ![R, 1]⟩ ⟨3, ![H, R, C]⟩)
    (h1 : d.updateWindowDims = [0, 2]) (h2 : d.insertedWindowDims = [1]) (h3 : d.scatterDimsToOperandDims = [1])
    (h4 : d.indexVectorDim = 1) {φ : FTy}
    (x : FVec Ideal ⟨3, ![H, N, C]⟩ φ) (idx : IVec ⟨2, ![R, 1]⟩ w) (upd : FVec Ideal ⟨3, ![H, R, C]⟩ φ)
    (h : Fin H) (v : Fin N) (c : Fin C) :
    Host.scatterAdd (F := Ideal) d x idx upd (ix3 h v c)
      = x (ix3 h v c) + ∑ k : Fin R, if (idx (ix2 k (0 : Fin 1))).toInt = (v.val : Int) then upd (ix3 h k c) else 0 := by
  obtain ⟨uw, iw, sd, iv, wf⟩ := d
  dsimp only at h1 h2 h3 h4
  subst h1 h2 h3 h4
  exact scatterAdd_mid_apply wf x idx upd h v c

end Cert.LibMidScatter

end
-- ==== Proof.RefValue.lean ====
/-
  The reference's per-hop, per-label sums at one element.

  The reference scatters the rows of the embedding array into a zero array of shape [3, 10, 128] by label: element
  `(h, l, d)` of the result is the sum, over the nodes `i` whose label read signed is `l`, of `x[h, i, d]`. A label
  outside `0 … 9` lands nowhere.
-/
import proofs.«400846_j1735166788587_2_alg».proof.Proof.Gen.ReferenceIdeal.Read
import proofs.«400846_j1735166788587_2_alg».proof.Proof.LibMidScatter
import Idealize.ShloMosaic.PureOps.Ideal.Laws
import Idealize.ShloMosaic.Lib.ValueIdx

set_option maxRecDepth 16384

noncomputable section

open scoped BigOperators
open Idealize.ShloMosaic Idealize.ShloMosaic.ValueIdx

namespace Cert.ReferenceIdeal.RefValue

open Cert.ReferenceIdeal Cert.ReferenceIdeal.Gen Cert.ReferenceIdeal.Read Cert.LibMidScatter

/-- The zero array the scatter adds into is zero at every element. -/
theorem zeros_apply (j : S3x10x128.Idx) : val_main_v6 (F := Ideal) j = 0 := by
  rw [val_main_v6_apply, val_main_v4_apply, val_main_cst_1_apply]
  exact Ideal.ofBits_zero_f32

/-- Row `k` of the index column the scatter reads is label `k`. -/
theorem idxcol_apply (x1 : (⟨S200000, .i32⟩ : BufTy).Contents (Elt Ideal)) (k : Fin 200000) :
    val_main_v5 (F := Ideal) x1 (ix2 k (0 : Fin 1)) = x1 (ix1 k) := by
  rw [val_main_v5_apply]
  exact congrArg x1 (funext fun a => match a with | ⟨0, _⟩ => rfl)

/-- Element `(h, l, d)` of the reference's sums: the sum over the nodes labelled `l` of `x[h, i, d]`. -/
theorem sums_apply (x0 : (⟨S3x200000x128, .f32⟩ : BufTy).Contents (Elt Ideal)) (x1 : (⟨S200000, .i32⟩ : BufTy).Contents (Elt Ideal))
    (h : Fin 3) (l : Fin 10) (d : Fin 128) :
    val_main_v7 (F := Ideal) x0 x1 (ix3 h l d)
      = ∑ i : Fin 200000, if (x1 (ix1 i)).toInt = (l.val : Int) then x0 (ix3 h i d) else 0 := by
  unfold val_main_v7
  rw [scatterAdd_mid_apply_of scatter_S3x10x128_S200000x1_S3x200000x128_02_1_1_1 rfl rfl rfl rfl, zeros_apply, zero_add]
  exact Finset.sum_congr rfl fun k _ => by rw [idxcol_apply]

end Cert.ReferenceIdeal.RefValue

end
-- ==== Proof.Sums.lean ====
/-
  The kernel's sums are the reference's.

  Summed over the two halves, the partial sums give at `(h, l, d)` the sum over ALL nodes labelled `l` of `x[h, i, d]`:
  the halves' tiles are the two hundred thousand rows, each once. That is the element the reference's scatter leaves.
  Sums of extended reals may be regrouped freely, so nothing is asked of the inputs.
-/
import proofs.«400846_j1735166788587_2_alg».proof.Proof.Accum
import proofs.«400846_j1735166788587_2_alg».proof.Proof.Tail
import proofs.«400846_j1735166788587_2_alg».proof.Proof.RefValue
import Idealize.ShloMosaic.Lib.IdealHost
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Sums

open Cert.KernelIdeal Cert.KernelIdeal.Gen Cert.KernelIdeal.Accum Cert.SegSum

/-- The sum over the halves at `(h, l, d)`: the two halves' elements added. -/
theorem halves_apply (part : Vec Ideal S2x3x10x128 .f32) (h : Fin 3) (l : Fin 10) (d : Fin 128) :
    Tail.halvesSum (F := Ideal) part (ix3 h l d) = ∑ c' : Fin 2, part (ix4 c' h l d) := by
  unfold Tail.halvesSum
  rw [hostReduceAdd_apply, Ideal.hostReduceAdd_single reducesTo_S2x3x10x128_S3x10x128_d0 (by decide)]
  show Ideal.ofBits .f32 0x00000000#32 + ∑ c' : Fin 2, part _ = _
  rw [Ideal.ofBits_zero_f32, zero_add]
  refine Finset.sum_congr rfl fun c' _ => congrArg part ?_
  funext a
  match a with
  | ⟨0, _⟩ => rfl
  | ⟨1, _⟩ => rfl
  | ⟨2, _⟩ => rfl
  | ⟨3, _⟩ => rfl

variable (m : (ℓ : Loc nD τ sig) → Buf (Elt Ideal) ℓ)

/-- Summed over the halves, the partial sums are the sums over all nodes. -/
theorem sums_apply (c : Dev nD) (h : Fin 3) (l : Fin 10) (d : Fin 128) :
    Tail.halvesSum (F := Ideal) (partialSums m c) (ix3 h l d) = ∑ i : Fin 200000, term m c h l d i := by
  rw [halves_apply]
  exact sum_tiles (term m c h l d)

/-- The kernel's summed partial sums are the reference's scatter of the same arguments. -/
theorem sums_eq (c : Dev nD) :
    Tail.halvesSum (F := Ideal) ((dats m 0 c).arrAt 2 cfg0.N)
      = Cert.ReferenceIdeal.Read.val_main_v7 (F := Ideal) (m ((c : Thread nD τ).loc main_arg0)) (m ((c : Thread nD τ).loc main_arg1)) := by
  rw [Accum.final]
  funext (j : S3x10x128.Idx)
  obtain ⟨h, l, d, rfl⟩ : ∃ (h : Fin 3) (l : Fin 10) (d : Fin 128), j = ix3 h l d := ⟨j 0, j 1, j 2, eq_ix3 j⟩
  refine (sums_apply m c h l d).trans ?_
  exact (Cert.ReferenceIdeal.RefValue.sums_apply (m ((c : Thread nD τ).loc main_arg0)) (m ((c : Thread nD τ).loc main_arg1)) h l d).symm

end Cert.KernelIdeal.Sums

end
-- ==== Proof.lean ====
/-
  The certificate's claims.

  The kernel computes, for each hop, the per-label sums of the node embeddings as a one-hot matrix product, tile by
  tile, into one accumulator block per half of the nodes and hop, and adds the two halves afterwards; the reference
  scatters the rows by label. Over the extended reals both give, at `(h, l, d)`, the sum of `x[h, i, d]` over the
  nodes `i` labelled `l`: a one-hot entry times a value is the value or zero, and a sum may be taken tile by tile. The
  counts, the division by the clamped counts and the addition of the weights are the same operations in both
  programs, on the same labels and weights. No input needs to be finite for any of this.
-/
import proofs.«400846_j1735166788587_2_alg».proof.Defs
import proofs.«400846_j1735166788587_2_alg».proof.Proof.Gen.Kernel
import proofs.«400846_j1735166788587_2_alg».proof.Proof.Gen.Kernel.Frame
import proofs.«400846_j1735166788587_2_alg».proof.Proof.Gen.KernelIdeal
import proofs.«400846_j1735166788587_2_alg».proof.Proof.Gen.KernelIdeal.Frame
import proofs.«400846_j1735166788587_2_alg».proof.Proof.Gen.ReferenceIdeal
import proofs.«400846_j1735166788587_2_alg».proof.Proof.Gen.Pre_finite_inputs
import proofs.«400846_j1735166788587_2_alg».proof.Proof.Gen.ReferenceIdeal.Run
import proofs.«400846_j1735166788587_2_alg».proof.Proof.Gen.ReferenceIdeal.Read
import proofs.«400846_j1735166788587_2_alg».proof.Proof.Tail
import proofs.«400846_j1735166788587_2_alg».proof.Proof.Sums
import Idealize.ShloMosaic.Adequacy
import Idealize.ShloMosaic.Init

noncomputable section

namespace Cert.Proof

open Idealize.ShloMosaic Idealize.ShloMosaic.TcCoe Idealize.SL.Sem
open Idealize.ShloMosaic.Pipeline (Dat)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

section
open Cert.KernelIdeal Cert.KernelIdeal.Gen

/-- The idealized kernel's run, read: the first result at the centers of the summed partial sums, the second at the
    counts column, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12)
          = Tail.centers (Tail.halvesSum ((dats m 0 c).arrAt 2 cfg0.N)) (m ((c.tc : Thread nD τ).loc main_arg1)) (m ((c.tc : Thread nD τ).loc main_arg2))
      ∧ r.2.mem ((c.tc : Thread nD τ).loc main_v13) = Tail.countsCol (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans (Tail.tail_v12 m c),
     ((h c).2 main_v13 (Pipeline.mem_restRefs_of main_v13 (by decide) (by decide))).trans (Tail.tail_v13 m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end

/-- Both programs end with equal results: the reference's scatter is the kernel's summed partial sums, and what
    follows is the same in both. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2]
    show Cert.KernelIdeal.Tail.centers (Cert.ReferenceIdeal.Read.val_main_v7 (F := Ideal) _ _) _ _ = _
    rw [Cert.KernelIdeal.Sums.sums_eq m c]
  · rw [(hagree c).2.1]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
